-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S16x128 : Shape := ⟨2, ![16, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x16 .f32) (main_arg3 : FVec F S16x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S16x128 : Shape := ⟨2, ![16, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S3200x128 : Shape := ⟨2, ![3200, 128]⟩
abbrev S3200x16 : Shape := ⟨2, ![3200, 16]⟩
abbrev S5000x128 : Shape := ⟨2, ![5000, 128]⟩

abbrev nBuf : Space → Nat
  | .hbm => 31
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S100000x128, .f32⟩
  | .local _ .vmem, ⟨0, _⟩ => ⟨S3200x128, .f32⟩
  | .local _ .vmem, ⟨1, _⟩ => ⟨S3200x128, .f32⟩
  | .local _ .vmem, ⟨2, _⟩ => ⟨S3200x16, .f32⟩
  | .local _ .vmem, ⟨3, _⟩ => ⟨S3200x16, .f32⟩
  | .local _ .vmem, ⟨4, _⟩ => ⟨S16x128, .f32⟩
  | .local _ .vmem, ⟨5, _⟩ => ⟨S1x128, .f32⟩
  | .local _ .vmem, ⟨6, _⟩ => ⟨S3200x128, .f32⟩
  | .local _ .vmem, ⟨7, _⟩ => ⟨S3200x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S128_S1x128 : S128.ShapeCasts S1x128
  inb_S3200x16_S3200x16_0_0 : ∀ a, (![0, 0] : Fin 2 → Nat) a + S3200x16.size a ≤ S3200x16.size a
  h_S3200x16 : 0 < S3200x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  dot_S3200x16_S16x128_S3200x128_1_0_0_1_n_n_wf : DotDims.WF S3200x16 S16x128 S3200x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S1600000x128.size a
  hwx0_0 : ∀ i : grid0.Coords, EltTy.bits .f32 = 32 ∨ (Rect.block (s := S1600000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x16.size a ≤ S1600000x16.size a
  hwx0_1 : ∀ i : grid0.Coords, EltTy.bits .f32 = 32 ∨ (Rect.block (s := S1600000x16) S3200x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x128.size a ≤ S1600000x128.size a
  hwx0_4 : ∀ i : grid0.Coords, EltTy.bits .f32 = 32 ∨ (Rect.block (s := S1600000x128) S3200x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S3200x16_S16x128_S3200x128_1_0_0_1_n_n : DotDims S3200x16 S16x128 S3200x128 where
  lhsContracting := [1]
  rhsContracting := [0]
  lhsNonContracting := [0]
  rhsNonContracting := [1]
  lhsBatch := []
  rhsBatch := []
  wf := dot_S3200x16_S16x128_S3200x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3200x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S3200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S16x128 : Shape := ⟨2, ![16, 128]⟩
abbrev S128 : Shape := ⟨1, ![128]⟩
abbrev S128x128 : Shape := ⟨2, ![128, 128]⟩
abbrev S1600000x128 : Shape := ⟨2, ![1600000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1600000x128, .f32⟩
  | .hbm, ⟨10, _⟩ => ⟨S1x128, .f32⟩
  | .hbm, ⟨11, _⟩ => ⟨S1600000x128, .f32⟩
  | .hbm, ⟨12, _⟩ => ⟨S1600000x128, .f32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1x1600000, .i32⟩
  | .hbm, ⟨26, _⟩ => ⟨S1600000, .i32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  dot_S1600000x16_S16x128_S1600000x128_1_0_0_1_n_n_wf : DotDims.WF S1600000x16 S16x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowBias.lean ====
/-
  Row blocks, continued: a bias row that is kept as a one-row matrix, and the two spellings of "a vector as a
  one-row matrix".

  A kernel whose bias operand is the matrix `[1, n]` loads that one row whole at every grid point and
  broadcasts it over its block's rows; the whole-matrix side broadcasts the same one-row matrix over all rows.
  Row `r` of the latter and row `p` of the former are both the one row, so the block is a row block
  (`biasRow`). A vector becomes a one-row matrix either by a reshape or by a broadcast along a new leading unit
  axis; both put entry `j` of the vector at `(0, j)` (`reshape_row_eq_bcast`).
-/
import proofs.«123321_j30116310679888_1_alg».proof.Proof.LibRowBlock

noncomputable section

namespace Cert.RowBlock

open Idealize.ShloMosaic Idealize.ShloMosaic.ValueIdx

namespace IsRows

variable {α : Type} {N n B t : Nat}

/-- A cast of a block to its own shape changes nothing. -/
theorem castSelf {A : (⟨2, ![N, n]⟩ : Shape).Idx → α} {a : (⟨2, ![B, n]⟩ : Shape).Idx → α} (H : IsRows B t A a)
    (h : (⟨2, ![B, n]⟩ : Shape).ShapeCasts ⟨2, ![B, n]⟩) : IsRows B t A (shapeCast ⟨2, ![B, n]⟩ a h) := by
  rw [shapeCast_self]
  exact H

/-- One row, held as a one-row matrix `X`, broadcast over all `N` rows: its row block is a copy `x` of that row (cast
    to its own shape) broadcast over the block's `B` rows. -/
theorem biasRow (X x : (⟨2, ![1, n]⟩ : Shape).Idx → α) (hx : ∀ j : Fin n, x (ix2 (0 : Fin 1) j) = X (ix2 (0 : Fin 1) j))
    (h2 : (⟨2, ![1, n]⟩ : Shape).BroadcastsInDim ⟨2, ![N, n]⟩ ![0, 1])
    (hc : (⟨2, ![1, n]⟩ : Shape).ShapeCasts ⟨2, ![1, n]⟩) (hb : (⟨2, ![1, n]⟩ : Shape).Broadcasts ⟨2, ![B, n]⟩) :
    IsRows B t (broadcastInDim ⟨2, ![N, n]⟩ ![0, 1] h2 X) (broadcastTo ⟨2, ![B, n]⟩ (shapeCast ⟨2, ![1, n]⟩ x hc) hb) := by
  intro p j r _
  rw [broadcastTo_1b_ab_apply, shapeCast_self, hx]
  refine Eq.symm (broadcastInDim_apply ![0, 1] h2 X (ix2 r j) (ix2 (0 : Fin 1) j) fun a => ?_)
  match a with
  | ⟨0, _⟩ => rfl
  | ⟨1, _⟩ =>
    show j.val = if n = 1 then 0 else j.val
    split
    · have := j.isLt; omega
    · rfl

end IsRows

/-- A vector reshaped to a one-row matrix, and the same vector broadcast along a new leading unit axis, are one
    matrix: entry `j` of the vector at `(0, j)`. -/
theorem reshape_row_eq_bcast {α : Type} {n : Nat} (b : (⟨1, ![n]⟩ : Shape).Idx → α)
    (hc : (⟨1, ![n]⟩ : Shape).ShapeCasts ⟨2, ![1, n]⟩) (h1 : (⟨1, ![n]⟩ : Shape).BroadcastsInDim ⟨2, ![1, n]⟩ ![1]) :
    shapeCast ⟨2, ![1, n]⟩ b hc = broadcastInDim ⟨2, ![1, n]⟩ ![1] h1 b := by
  funext i
  obtain ⟨u, j, rfl⟩ : ∃ (u : Fin 1) (j : Fin n), i = ix2 u j := ⟨i 0, i 1, eq_ix2 i⟩
  rw [shapeCast_a_1a_apply]
  refine Eq.symm (broadcastInDim_apply ![1] h1 b (ix2 u j) (ix1 j) fun a => ?_)
  match a with
  | ⟨0, _⟩ =>
    show j.val = if n = 1 then 0 else j.val
    split
    · have := j.isLt; omega
    · rfl

end Cert.RowBlock

end
-- ==== Proof.EdgeRegion.lean ====
/-
  The first kernel region: edge messages.

  The region runs over 500 grid points; point `t` is handed rows `3200·t … 3200·t + 3199` of the gathered node
  features `gH` and of the edge attributes `ea`, the whole weight matrix `We` and the bias row `be`, and writes
  back rows `3200·t …` of its result: `(gH_blk + ea_blk · We) + be`. Every operation in that body computes row `p` of
  its result from row `p` of its operands alone, so what point `t` writes back is the `t`-th row block of

      edgeMsg gH ea We be = (gH + ea · We) + (be over all rows)

  of the whole arrays; the 500 blocks tile the 1,600,000 rows, so the array ends holding `edgeMsg`.
-/
import proofs.«123321_j30116310679888_1_alg».proof.Proof.Gen.KernelIdeal.Frame
import proofs.«123321_j30116310679888_1_alg».proof.Proof.LibRowBias

set_option maxRecDepth 16384

noncomputable section

namespace Cert.KernelIdeal.EdgeRegion

open Idealize.ShloMosaic Idealize.ShloMosaic.TcCoe Idealize.ShloMosaic.ValueIdx Idealize.SL.Sem
open Idealize.ShloMosaic.Pipeline (Dat)
open Cert.KernelIdeal Cert.KernelIdeal.Gen Cert.RowBlock

/-- The edge messages as one function of the whole arrays: the gathered features plus the edge attributes times the
    weights, plus the bias row over all rows (added in this order). -/
def edgeMsg (D : DotDims S1600000x16 S16x128 S1600000x128) (hbc : S1x128.BroadcastsInDim S1600000x128 ![0, 1])
    (gH : FVec Ideal S1600000x128 .f32) (ea : FVec Ideal S1600000x16 .f32) (We : FVec Ideal S16x128 .f32)
    (be : FVec Ideal S1x128 .f32) : FVec Ideal S1600000x128 .f32 :=
  addf (addf gH (Host.dotGeneral D none ea We)) (broadcastInDim S1600000x128 ![0, 1] hbc be)

/-- The body's arithmetic sends row blocks to the row block of `edgeMsg`: the feature block and the attribute block are
    row blocks, the weights and the bias row are the whole arrays. -/
theorem pay_rows (D : DotDims S1600000x16 S16x128 S1600000x128) (hD : IsRows.Plain D 1 0 0 1)
    (hbc : S1x128.BroadcastsInDim S1600000x128 ![0, 1]) {t : Nat}
    (GH : FVec Ideal S1600000x128 .f32) (EA : FVec Ideal S1600000x16 .f32) (WE : FVec Ideal S16x128 .f32) (BE : FVec Ideal S1x128 .f32)
    (v0 : FVec Ideal S3200x16 .f32) (v2 : FVec Ideal S16x128 .f32) (v5 : FVec Ideal S3200x128 .f32) (v8 : FVec Ideal S1x128 .f32)
    (h5 : IsRows 3200 t GH v5) (h0 : IsRows 3200 t EA v0) (h2 : ∀ k j, v2 (ix2 k j) = WE (ix2 k j))
    (h8 : ∀ j : Fin 128, v8 (ix2 (0 : Fin 1) j) = BE (ix2 (0 : Fin 1) j)) :
    IsRows 3200 t (edgeMsg D hbc GH EA WE BE) (k0_pay1 (F := Ideal) v0 v2 v5 v8) := by
  unfold edgeMsg k0_pay1
  exact ((h5.castSelf _).add (IsRows.dot (h0.trunc _) D _ hD ⟨rfl, rfl, rfl, rfl, rfl, rfl⟩ WE _ h2)).add
    (IsRows.biasRow BE v8 h8 hbc _ _)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature, attribute and result windows move one row block per
    point, the weight and bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature window's block at point `t` is rows `3200·t …` of its array. -/
theorem rows_gH (c : Dev nD) (t : Fin cfg0.N) :
    IsRows 3200 t.val (V c main_v10 : FVec Ideal S1600000x128 .f32) (iblk0 V c 0 t : FVec Ideal S3200x128 .f32) := by
  intro p j r hr
  obtain ⟨e0, e1, -⟩ := idx_facts t
  show V c main_v10 (((cfg0.win 0).blk t).view.emb (ix2 p j)) = V c main_v10 (ix2 r j)
  refine congrArg _ (funext fun a => Fin.ext ?_)
  match a with
  | ⟨0, _⟩ => show win0_0.index t (0 : Fin 2) * 3200 + 1 * p.val = r.val; omega
  | ⟨1, _⟩ => show win0_0.index t (1 : Fin 2) * 128 + 1 * j.val = j.val; omega

/-- The attribute window's block at point `t` is rows `3200·t …` of its array. -/
theorem rows_ea (c : Dev nD) (t : Fin cfg0.N) :
    IsRows 3200 t.val (V c main_arg2 : FVec Ideal S1600000x16 .f32) (iblk0 V c 1 t : FVec Ideal S3200x16 .f32) := by
  intro p j r hr
  obtain ⟨-, -, e0, e1, -⟩ := idx_facts t
  show V c main_arg2 (((cfg0.win 1).blk t).view.emb (ix2 p j)) = V c main_arg2 (ix2 r j)
  refine congrArg _ (funext fun a => Fin.ext ?_)
  match a with
  | ⟨0, _⟩ => show win0_1.index t (0 : Fin 2) * 3200 + 1 * p.val = r.val; omega
  | ⟨1, _⟩ => show win0_1.index t (1 : Fin 2) * 16 + 1 * j.val = j.val; omega

/-- The weight window's block is its whole array at every point. -/
theorem whole_We (c : Dev nD) (t : Fin cfg0.N) (k : Fin 16) (j : Fin 128) :
    (iblk0 V c 2 t : FVec Ideal S16x128 .f32) (ix2 k j) = (V c main_arg3 : FVec Ideal S16x128 .f32) (ix2 k j) := by
  obtain ⟨-, -, -, -, e0, e1, -⟩ := idx_facts t
  show V c main_arg3 (((cfg0.win 2).blk t).view.emb (ix2 k j)) = V c main_arg3 (ix2 k j)
  refine congrArg _ (funext fun a => Fin.ext ?_)
  match a with
  | ⟨0, _⟩ => show win0_2.index t (0 : Fin 2) * 16 + 1 * k.val = k.val; omega
  | ⟨1, _⟩ => show win0_2.index t (1 : Fin 2) * 128 + 1 * j.val = j.val; omega

/-- The bias window's block is its whole one-row array at every point. -/
theorem whole_be (c : Dev nD) (t : Fin cfg0.N) (j : Fin 128) :
    (iblk0 V c 3 t : FVec Ideal S1x128 .f32) (ix2 (0 : Fin 1) j) = (V c main_v11 : FVec Ideal S1x128 .f32) (ix2 (0 : Fin 1) j) := by
  obtain ⟨-, -, -, -, -, -, e0, e1, -⟩ := idx_facts t
  show V c main_v11 (((cfg0.win 3).blk t).view.emb (ix2 (0 : Fin 1) j)) = V c main_v11 (ix2 (0 : Fin 1) j)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

/-- Row `p` of the result window's block at point `t` sits at row `3200·t + p` of its array. -/
theorem emb_out (t : Fin cfg0.N) (p : Fin 3200) (j : Fin 128) (r : Fin 1600000) (hr : r.val = 3200 * t.val + p.val) :
    ((cfg0.win 4).blk t).view.emb (ix2 p j) = (ix2 r j : S1600000x128.Idx) := by
  obtain ⟨-, -, -, -, -, -, -, -, e0, e1⟩ := idx_facts t
  refine funext fun a => Fin.ext ?_
  match a with
  | ⟨0, _⟩ => show win0_4.index t (0 : Fin 2) * 3200 + 1 * p.val = r.val; omega
  | ⟨1, _⟩ => show win0_4.index t (1 : Fin 2) * 128 + 1 * j.val = j.val; omega

/-- WHAT POINT `t` WRITES BACK is block `t` of `edgeMsg` of the arrays as the region finds them. -/
theorem flushed_eq (D : DotDims S1600000x16 S16x128 S1600000x128) (hD : IsRows.Plain D 1 0 0 1)
    (hbc : S1x128.BroadcastsInDim S1600000x128 ![0, 1]) (c : Dev nD) (t : Fin cfg0.N) :
    (dat0 V c).flushed 4 t = ((cfg0.win 4).blk t).view.read (Elt Ideal)
      (edgeMsg D hbc (V c main_v10) (V c main_arg2) (V c main_arg3) (V c main_v11)) := by
  show (cfg0.win 4).cut (grid0.coords t) ((dat0 V c).after 4 t) = _
  rw [after0_4]
  unfold out0_4
  rw [View.canon_unit_zero hz]
  simp only [View.ld_unit_zero (S := S3200x16) hz, View.ld_unit_zero (S := S16x128) hz,
    View.ld_unit_zero (S := S3200x128) hz, View.ld_unit_zero (S := S1x128) hz]
  funext y
  obtain ⟨p, j, rfl⟩ : ∃ (p : Fin 3200) (j : Fin 128), y = ix2 p j := ⟨y 0, y 1, eq_ix2 y⟩
  have ht : t.val < 500 := lt_of_lt_of_eq t.isLt N_0
  have hr : 3200 * t.val + p.val < 1600000 := by have := p.isLt; omega
  show k0_pay1 (F := Ideal) (iblk0 V c 1 t) (iblk0 V c 2 t) (iblk0 V c 0 t) (iblk0 V c 3 t) (ix2 p j)
    = edgeMsg D hbc (V c main_v10) (V c main_arg2) (V c main_arg3) (V c main_v11) (((cfg0.win 4).blk t).view.emb (ix2 p j))
  rw [emb_out t p j ⟨3200 * t.val + p.val, hr⟩ rfl]
  exact pay_rows D hD hbc (V c main_v10) (V c main_arg2) (V c main_arg3) (V c main_v11)
    (iblk0 V c 1 t) (iblk0 V c 2 t) (iblk0 V c 0 t) (iblk0 V c 3 t)
    (rows_gH V c t) (rows_ea V c t) (whole_We V c t) (whole_be V c t) p j ⟨3200 * t.val + p.val, hr⟩ rfl

/-- An index of the array is in point `t`'s block iff each coordinate is in the block's range on its axis. -/
theorem mem_blk (t : Fin cfg0.N) (i : S1600000x128.Idx) :
    i ∈ ((cfg0.win 4).blk t).view.set ↔ ∀ a : Fin 2, win0_4.index t a * S3200x128.size a ≤ (i a).val ∧ (i a).val < win0_4.index t a * S3200x128.size a + S3200x128.size a := by
  show i ∈ ((View.whole main_v12).slice (win0_4.rect t)).set ↔ _
  rw [View.set_slice_whole, Rect.mem_set_unit]
  exact Iff.rfl

/-- Every row is in the block of the point `row / 3200`. -/
theorem cover (i : S1600000x128.Idx) :
    ∃ t : Fin cfg0.N, (cfg0.win 4).flush t = true ∧ i ∈ ((cfg0.win 4).blk t).view.set := by
  have hi0 : (i 0).val < 1600000 := idx2_lt0 i
  have hi1 : (i 1).val < 128 := idx2_lt1 i
  have ht : (i 0).val / 3200 < cfg0.N := by rw [show cfg0.N = 500 from N_0]; omega
  refine ⟨⟨(i 0).val / 3200, ht⟩, flush0_4 _, ?_⟩
  rw [mem_blk]
  obtain ⟨-, -, -, -, -, -, -, -, e0, e1⟩ := idx_facts ⟨(i 0).val / 3200, ht⟩
  intro a
  match a with
  | ⟨0, _⟩ =>
    show win0_4.index ⟨(i 0).val / 3200, ht⟩ (0 : Fin 2) * 3200 ≤ (i 0).val ∧ (i 0).val < win0_4.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_4.index ⟨(i 0).val / 3200, ht⟩ (1 : Fin 2) * 128 ≤ (i 1).val ∧ (i 1).val < win0_4.index ⟨(i 0).val / 3200, ht⟩ (1 : Fin 2) * 128 + 128
    rw [e1]; omega

/-- THE ARRAY after the region: `edgeMsg` of the arrays as the region finds them. -/
theorem array_eq (D : DotDims S1600000x16 S16x128 S1600000x128) (hD : IsRows.Plain D 1 0 0 1)
    (hbc : S1x128.BroadcastsInDim S1600000x128 ![0, 1]) (c : Dev nD) :
    (dat0 V c).arrAt 4 cfg0.N = edgeMsg D hbc (V c main_v10) (V c main_arg2) (V c main_arg3) (V c main_v11) :=
  (dat0 V c).arrAt_eq_of_cover 4 _ (fun t _ => flushed_eq V D hD hbc c t) cover

end Cert.KernelIdeal.EdgeRegion

end
-- ==== Proof.NodeRegion.lean ====
/-
  The second kernel region: the node network.

  The region runs over 20 grid points; point `t` is handed rows `5000·t … 5000·t + 4999` of the aggregated messages
  `agg`, the two whole weight matrices and the two bias rows, and writes back rows `5000·t …` of
  `max(agg_blk · W1 + b1, 0) · W2 + b2`. Row `p` of each intermediate depends on row `p` of the block alone, so what point
  `t` writes back is the `t`-th row block of

      nodeMlp agg W1 b1 W2 b2 = max(agg · W1 + b1, 0) · W2 + b2

  of the whole arrays; the 20 blocks tile the 100,000 rows, so the array ends holding `nodeMlp`.
-/
import proofs.«123321_j30116310679888_1_alg».proof.Proof.Gen.KernelIdeal.Frame
import proofs.«123321_j30116310679888_1_alg».proof.Proof.LibRowBias

set_option maxRecDepth 16384

noncomputable section

namespace Cert.KernelIdeal.NodeRegion

open Idealize.ShloMosaic Idealize.ShloMosaic.TcCoe Idealize.ShloMosaic.ValueIdx Idealize.SL.Sem
open Idealize.ShloMosaic.Pipeline (Dat)
open Cert.KernelIdeal Cert.KernelIdeal.Gen Cert.RowBlock

/-- The node network as one function of the whole arrays: a linear layer, the rectifier (the maximum with a zero
    matrix), a second linear layer. -/
def nodeMlp (D : DotDims S100000x128 S128x128 S100000x128) (hbc : S1x128.BroadcastsInDim S100000x128 ![0, 1])
    (hzero : S_.BroadcastsInDim S100000x128 ![])
    (agg : FVec Ideal S100000x128 .f32) (W1 : FVec Ideal S128x128 .f32) (b1 : FVec Ideal S1x128 .f32)
    (W2 : FVec Ideal S128x128 .f32) (b2 : FVec Ideal S1x128 .f32) : FVec Ideal S100000x128 .f32 :=
  addf (Host.dotGeneral D none
      (maximumf (addf (Host.dotGeneral D none agg W1) (broadcastInDim S100000x128 ![0, 1] hbc b1))
        (broadcastInDim S100000x128 ![] hzero (constant (F := Ideal) S_ .f32 0x00000000#32))) W2)
    (broadcastInDim S100000x128 ![0, 1] hbc b2)

/-- The body's arithmetic sends the row block of `agg` to the row block of `nodeMlp`, the weights and the bias rows
    being the whole arrays. -/
theorem pay_rows (D : DotDims S100000x128 S128x128 S100000x128) (hD : IsRows.Plain D 1 0 0 1)
    (hbc : S1x128.BroadcastsInDim S100000x128 ![0, 1]) (hzero : S_.BroadcastsInDim S100000x128 ![]) {t : Nat}
    (AGG : FVec Ideal S100000x128 .f32) (W1 : FVec Ideal S128x128 .f32) (B1 : FVec Ideal S1x128 .f32)
    (W2 : FVec Ideal S128x128 .f32) (B2 : FVec Ideal S1x128 .f32)
    (v0 : FVec Ideal S5000x128 .f32) (v3 : FVec Ideal S128x128 .f32) (v6 : FVec Ideal S1x128 .f32)
    (v13 : FVec Ideal S128x128 .f32) (v16 : FVec Ideal S1x128 .f32)
    (h0 : IsRows 5000 t AGG v0) (h3 : ∀ k j, v3 (ix2 k j) = W1 (ix2 k j))
    (h6 : ∀ j : Fin 128, v6 (ix2 (0 : Fin 1) j) = B1 (ix2 (0 : Fin 1) j))
    (h13 : ∀ k j, v13 (ix2 k j) = W2 (ix2 k j))
    (h16 : ∀ j : Fin 128, v16 (ix2 (0 : Fin 1) j) = B2 (ix2 (0 : Fin 1) j)) :
    IsRows 5000 t (nodeMlp D hbc hzero AGG W1 B1 W2 B2) (k1_pay1 (F := Ideal) v0 v3 v6 v13 v16) := by
  unfold nodeMlp k1_pay1
  exact (IsRows.dot
      ((((IsRows.dot ((h0.castSelf _).trunc _) D _ hD ⟨rfl, rfl, rfl, rfl, rfl, rfl⟩ W1 _ h3).add
          (IsRows.biasRow B1 v6 h6 hbc _ _)).maxf (IsRows.splat .f32 0x00000000#32 hzero)).trunc _)
      D _ hD ⟨rfl, rfl, rfl, rfl, rfl, rfl⟩ W2 _ h13).add
    (IsRows.biasRow B2 v16 h16 hbc _ _)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the message and result windows move one row block per point, the
    weight and bias windows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The message window's block at point `t` is rows `5000·t …` of its array. -/
theorem rows_agg (c : Dev nD) (t : Fin cfg1.N) :
    IsRows 5000 t.val (V c main_v15 : FVec Ideal S100000x128 .f32) (iblk1 V c 0 t : FVec Ideal S5000x128 .f32) := by
  intro p j r hr
  obtain ⟨e0, e1, -⟩ := idx_facts t
  show V c main_v15 (((cfg1.win 0).blk t).view.emb (ix2 p j)) = V c main_v15 (ix2 r j)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * j.val = j.val; omega

/-- The first weight window's block is its whole array at every point. -/
theorem whole_W1 (c : Dev nD) (t : Fin cfg1.N) (k : Fin 128) (j : Fin 128) :
    (iblk1 V c 1 t : FVec Ideal S128x128 .f32) (ix2 k j) = (V c main_arg5 : FVec Ideal S128x128 .f32) (ix2 k j) := by
  obtain ⟨-, -, e0, e1, -⟩ := idx_facts t
  show V c main_arg5 (((cfg1.win 1).blk t).view.emb (ix2 k j)) = V c main_arg5 (ix2 k j)
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * j.val = j.val; omega

/-- The first bias window's block is its whole one-row array at every point. -/
theorem whole_b1 (c : Dev nD) (t : Fin cfg1.N) (j : Fin 128) :
    (iblk1 V c 2 t : FVec Ideal S1x128 .f32) (ix2 (0 : Fin 1) j) = (V c main_v16 : FVec Ideal S1x128 .f32) (ix2 (0 : Fin 1) j) := by
  obtain ⟨-, -, -, -, e0, e1, -⟩ := idx_facts t
  show V c main_v16 (((cfg1.win 2).blk t).view.emb (ix2 (0 : Fin 1) j)) = V c main_v16 (ix2 (0 : Fin 1) j)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * j.val = j.val; omega

/-- The second weight window's block is its whole array at every point. -/
theorem whole_W2 (c : Dev nD) (t : Fin cfg1.N) (k : Fin 128) (j : Fin 128) :
    (iblk1 V c 3 t : FVec Ideal S128x128 .f32) (ix2 k j) = (V c main_arg7 : FVec Ideal S128x128 .f32) (ix2 k j) := by
  obtain ⟨-, -, -, -, -, -, e0, e1, -⟩ := idx_facts t
  show V c main_arg7 (((cfg1.win 3).blk t).view.emb (ix2 k j)) = V c main_arg7 (ix2 k j)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

/-- The second bias window's block is its whole one-row array at every point. -/
theorem whole_b2 (c : Dev nD) (t : Fin cfg1.N) (j : Fin 128) :
    (iblk1 V c 4 t : FVec Ideal S1x128 .f32) (ix2 (0 : Fin 1) j) = (V c main_v17 : FVec Ideal S1x128 .f32) (ix2 (0 : Fin 1) j) := by
  obtain ⟨-, -, -, -, -, -, -, -, e0, e1, -⟩ := idx_facts t
  show V c main_v17 (((cfg1.win 4).blk t).view.emb (ix2 (0 : Fin 1) j)) = V c main_v17 (ix2 (0 : Fin 1) j)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

/-- Row `p` of the result window's block at point `t` sits at row `5000·t + p` of its array. -/
theorem emb_out (t : Fin cfg1.N) (p : Fin 5000) (j : Fin 128) (r : Fin 100000) (hr : r.val = 5000 * t.val + p.val) :
    ((cfg1.win 5).blk t).view.emb (ix2 p j) = (ix2 r j : S100000x128.Idx) := by
  obtain ⟨-, -, -, -, -, -, -, -, -, -, e0, e1⟩ := idx_facts t
  refine funext fun a => Fin.ext ?_
  match a with
  | ⟨0, _⟩ => show win1_5.index t (0 : Fin 2) * 5000 + 1 * p.val = r.val; omega
  | ⟨1, _⟩ => show win1_5.index t (1 : Fin 2) * 128 + 1 * j.val = j.val; omega

/-- WHAT POINT `t` WRITES BACK is block `t` of `nodeMlp` of the arrays as the region finds them. -/
theorem flushed_eq (D : DotDims S100000x128 S128x128 S100000x128) (hD : IsRows.Plain D 1 0 0 1)
    (hbc : S1x128.BroadcastsInDim S100000x128 ![0, 1]) (hzero : S_.BroadcastsInDim S100000x128 ![]) (c : Dev nD) (t : Fin cfg1.N) :
    (dat1 V c).flushed 5 t = ((cfg1.win 5).blk t).view.read (Elt Ideal)
      (nodeMlp D hbc hzero (V c main_v15) (V c main_arg5) (V c main_v16) (V c main_arg7) (V c main_v17)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  have ht : t.val < 20 := lt_of_lt_of_eq t.isLt N_1
  have hr : 5000 * t.val + p.val < 100000 := by have := p.isLt; omega
  show k1_pay1 (F := Ideal) (iblk1 V c 0 t) (iblk1 V c 1 t) (iblk1 V c 2 t) (iblk1 V c 3 t) (iblk1 V c 4 t) (ix2 p j)
    = nodeMlp D hbc hzero (V c main_v15) (V c main_arg5) (V c main_v16) (V c main_arg7) (V c main_v17) (((cfg1.win 5).blk t).view.emb (ix2 p j))
  rw [emb_out t p j ⟨5000 * t.val + p.val, hr⟩ rfl]
  exact pay_rows D hD hbc hzero (V c main_v15) (V c main_arg5) (V c main_v16) (V c main_arg7) (V c main_v17)
    (iblk1 V c 0 t) (iblk1 V c 1 t) (iblk1 V c 2 t) (iblk1 V c 3 t) (iblk1 V c 4 t)
    (rows_agg V c t) (whole_W1 V c t) (whole_b1 V c t) (whole_W2 V c t) (whole_b2 V c t) p j ⟨5000 * t.val + p.val, hr⟩ rfl

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v18).slice (win1_5.rect t)).set ↔ _
  rw [View.set_slice_whole, Rect.mem_set_unit]
  exact Iff.rfl

/-- Every row is in the block of the point `row / 5000`. -/
theorem cover (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have ht : (i 0).val / 5000 < cfg1.N := by rw [show cfg1.N = 20 from N_1]; omega
  refine ⟨⟨(i 0).val / 5000, ht⟩, flush1_5 _, ?_⟩
  rw [mem_blk]
  obtain ⟨-, -, -, -, -, -, -, -, -, -, e0, e1⟩ := idx_facts ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- THE ARRAY after the region: `nodeMlp` of the arrays as the region finds them. -/
theorem array_eq (D : DotDims S100000x128 S128x128 S100000x128) (hD : IsRows.Plain D 1 0 0 1)
    (hbc : S1x128.BroadcastsInDim S100000x128 ![0, 1]) (hzero : S_.BroadcastsInDim S100000x128 ![]) (c : Dev nD) :
    (dat1 V c).arrAt 5 cfg1.N = nodeMlp D hbc hzero (V c main_v15) (V c main_arg5) (V c main_v16) (V c main_arg7) (V c main_v17) :=
  (dat1 V c).arrAt_eq_of_cover 5 _ (fun t _ => flushed_eq V D hD hbc hzero c t) cover

end Cert.KernelIdeal.NodeRegion

end
-- ==== Proof.KernelValue.lean ====
/-
  The kernel program's result as one function of its arguments.

  @main is: host operations (the sources' indices wrapped, the gather of node features, the first bias as a one-row
  matrix), the edge-message region, host operations (the scatter-add of the messages into a zero matrix at the
  destinations, the two other biases as one-row matrices), the node-network region. Reading the buffers' contents at
  each boundary — a host stretch by its operations' values, a region by its whole-array function — composes to

      wholeNet = nodeMlp (scatterAdd 0 dst (edgeMsg (gather H src) ea We be)) W1 b1 W2 b2,

  written below in the spelling a host program gives it: each bias a vector broadcast to one row and then over all
  rows, and the bias of the edge messages added to the product before the gathered features are added. The two
  spellings agree because a reshape to one row and a broadcast along a new unit axis are one matrix, and because
  addition of extended reals is associative.
-/
import proofs.«123321_j30116310679888_1_alg».proof.Proof.KernelRun
import proofs.«123321_j30116310679888_1_alg».proof.Proof.EdgeRegion
import proofs.«123321_j30116310679888_1_alg».proof.Proof.NodeRegion
import Idealize.ShloMosaic.Lib.StableHlo.Run

set_option maxRecDepth 16384

noncomputable section

namespace Cert.KernelIdeal.WholeNet

open Idealize.ShloMosaic Idealize.ShloMosaic.TcCoe Idealize.ShloMosaic.ValueIdx Idealize.SL.Sem Idealize.ShloMosaic.StableHlo
open Cert.KernelIdeal Cert.KernelIdeal.Gen Cert.RowBlock
open Cert.KernelIdeal.EdgeRegion (edgeMsg)
open Cert.KernelIdeal.NodeRegion (nodeMlp)

/-- The sources' row of the edge list as the gather's index column: a negative entry counts from the end. -/
def srcCol (ei : IVec S2x1600000 32) : IVec S1600000x1 32 :=
  broadcastInDim S1600000x1 ![0] bcast_S1600000_S1600000x1_0
    (select (cmpi .slt (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- The destinations' row of the edge list as the scatter's index column. -/
def dstCol (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- The whole computation in a host program's spelling. -/
def wholeNet (D1 : DotDims S1600000x16 S16x128 S1600000x128) (D2 : DotDims S100000x128 S128x128 S100000x128)
    (hE : S1x128.BroadcastsInDim S1600000x128 ![0, 1]) (hN : S1x128.BroadcastsInDim S100000x128 ![0, 1])
    (h1 : S128.BroadcastsInDim S1x128 ![1])
    (H : FVec Ideal S100000x128 .f32) (ei : IVec S2x1600000 32) (ea : FVec Ideal S1600000x16 .f32) (We : FVec Ideal S16x128 .f32)
    (be : FVec Ideal S128 .f32) (W1 : FVec Ideal S128x128 .f32) (b1 : FVec Ideal S128 .f32) (W2 : FVec Ideal S128x128 .f32)
    (b2 : FVec Ideal S128 .f32) : FVec Ideal S100000x128 .f32 :=
  addf (Host.dotGeneral D2 none
      (maximumf (addf (Host.dotGeneral D2 none
            (Host.scatterAdd scatter_S100000x128_S1600000x1_S1600000x128_1_0_0_1
              (broadcastInDim S100000x128 ![] bcast_S_S100000x128 (constant (F := Ideal) S_ .f32 0x00000000#32)) (dstCol ei)
              (addf (Host.gather gather_S100000x128_S1600000x1_S1600000x128_1_0_n_n_0_1_1128 H (srcCol ei))
                (addf (Host.dotGeneral D1 none ea We) (broadcastInDim S1600000x128 ![0, 1] hE (broadcastInDim S1x128 ![1] h1 be)))))
            W1) (broadcastInDim S100000x128 ![0, 1] hN (broadcastInDim S1x128 ![1] h1 b1)))
        (broadcastInDim S100000x128 ![] bcast_S_S100000x128 (constant (F := Ideal) S_ .f32 0x00000000#32))) W2)
    (broadcastInDim S100000x128 ![0, 1] hN (broadcastInDim S1x128 ![1] h1 b2))

/-- Addition of matrices of extended reals is associative. -/
theorem addf_assoc {s : Shape} (a b c : FVec Ideal s .f32) : addf (addf a b) c = addf a (addf b c) :=
  funext fun i => by rw [addf_apply, addf_apply, addf_apply, addf_apply, add_assoc]

variable (m : (ℓ : Loc nD τ sig) → Buf (Elt Ideal) ℓ) (ρ : Dev nD → PrngReg) (c : Dev nD)

/-- At launch a buffer holds the launch memory's contents. -/
theorem W0_at (b : Ref sig .tc) : W0 m ρ c (Proc.devRef .tc b) = m ((c : Thread nD τ).loc b) := rfl

/-! ## The first region's entry -/

theorem V1_v10 : V1 m ρ c main_v10
    = Host.gather gather_S100000x128_S1600000x1_S1600000x128_1_0_n_n_0_1_1128 (m ((c : Thread nD τ).loc main_arg0)) (srcCol (m ((c : Thread nD τ).loc main_arg1))) := by
  show StableHlo.after hostOps0 (W0 m ρ c) (Proc.devRef .tc main_v10) = _
  after_results
  rfl

theorem V1_v11 : V1 m ρ c main_v11 = shapeCast S1x128 (m ((c : Thread nD τ).loc main_arg4)) shapeCasts_S128_S1x128 := by
  show StableHlo.after hostOps0 (W0 m ρ c) (Proc.devRef .tc main_v11) = _
  after_results
  rfl

theorem V1_arg2 : V1 m ρ c main_arg2 = m ((c : Thread nD τ).loc main_arg2) := by
  show StableHlo.after hostOps0 (W0 m ρ c) (Proc.devRef .tc main_arg2) = _
  after_results

theorem V1_arg3 : V1 m ρ c main_arg3 = m ((c : Thread nD τ).loc main_arg3) := by
  show StableHlo.after hostOps0 (W0 m ρ c) (Proc.devRef .tc main_arg3) = _
  after_results

theorem W1_v3 : W1 m ρ c (Proc.devRef .tc main_v3)
    = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results
  rfl

theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results

/-! ## The first region's exit -/

/-- The messages' array after the first region. -/
theorem W2_v12 (D1 : DotDims S1600000x16 S16x128 S1600000x128) (hD1 : IsRows.Plain D1 1 0 0 1)
    (hE : S1x128.BroadcastsInDim S1600000x128 ![0, 1]) :
    W2 m ρ c (Proc.devRef .tc main_v12)
      = edgeMsg D1 hE (Host.gather gather_S100000x128_S1600000x1_S1600000x128_1_0_n_n_0_1_1128 (m ((c : Thread nD τ).loc main_arg0)) (srcCol (m ((c : Thread nD τ).loc main_arg1))))
          (m ((c : Thread nD τ).loc main_arg2)) (m ((c : Thread nD τ).loc main_arg3))
          (shapeCast S1x128 (m ((c : Thread nD τ).loc main_arg4)) shapeCasts_S128_S1x128) := by
  rw [← V1_v10 m ρ c, ← V1_v11 m ρ c, ← V1_arg2 m ρ c, ← V1_arg3 m ρ c]
  exact (W2_arr m ρ c 4).trans (EdgeRegion.array_eq (V1 m ρ) D1 hD1 hE c)

/-! ## The second region's entry -/

theorem V3_v15 : V3 m ρ c main_v15
    = Host.scatterAdd scatter_S100000x128_S1600000x1_S1600000x128_1_0_0_1
        (broadcastInDim S100000x128 ![] bcast_S_S100000x128 (constant (F := Ideal) S_ .f32 0x00000000#32))
        (dstCol (m ((c : Thread nD τ).loc main_arg1))) (W2 m ρ c (Proc.devRef .tc main_v12)) := by
  show StableHlo.after hostOps1 (W2 m ρ c) (Proc.devRef .tc main_v15) = _
  after_results
  rw [W2_of_ne m ρ c main_v3 (by decide), W1_v3 m ρ c]
  rfl

theorem V3_arg5 : V3 m ρ c main_arg5 = m ((c : Thread nD τ).loc main_arg5) := by
  show StableHlo.after hostOps1 (W2 m ρ c) (Proc.devRef .tc main_arg5) = _
  after_results
  rw [W2_of_ne m ρ c main_arg5 (by decide), W1_arg5 m ρ c]

theorem V3_arg7 : V3 m ρ c main_arg7 = m ((c : Thread nD τ).loc main_arg7) := by
  show StableHlo.after hostOps1 (W2 m ρ c) (Proc.devRef .tc main_arg7) = _
  after_results
  rw [W2_of_ne m ρ c main_arg7 (by decide), W1_arg7 m ρ c]

theorem V3_v16 : V3 m ρ c main_v16 = shapeCast S1x128 (m ((c : Thread nD τ).loc main_arg6)) shapeCasts_S128_S1x128 := by
  show StableHlo.after hostOps1 (W2 m ρ c) (Proc.devRef .tc main_v16) = _
  after_results
  rw [W2_of_ne m ρ c main_arg6 (by decide), W1_arg6 m ρ c]
  rfl

theorem V3_v17 : V3 m ρ c main_v17 = shapeCast S1x128 (m ((c : Thread nD τ).loc main_arg8)) shapeCasts_S128_S1x128 := by
  show StableHlo.after hostOps1 (W2 m ρ c) (Proc.devRef .tc main_v17) = _
  after_results
  rw [W2_of_ne m ρ c main_arg8 (by decide), W1_arg8 m ρ c]
  rfl

/-! ## The result -/

/-- THE RESULT ARRAY at the last boundary: the whole computation of the launch memory's arguments. -/
theorem result_eq (D1 : DotDims S1600000x16 S16x128 S1600000x128) (hD1 : IsRows.Plain D1 1 0 0 1)
    (D2 : DotDims S100000x128 S128x128 S100000x128) (hD2 : IsRows.Plain D2 1 0 0 1)
    (hE : S1x128.BroadcastsInDim S1600000x128 ![0, 1]) (hN : S1x128.BroadcastsInDim S100000x128 ![0, 1])
    (h1 : S128.BroadcastsInDim S1x128 ![1]) :
    W4 m ρ c (Proc.devRef .tc main_v18)
      = wholeNet D1 D2 hE hN h1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine ((W4_arr m ρ c 5).trans (NodeRegion.array_eq (V3 m ρ) D2 hD2 hN bcast_S_S100000x128 c)).trans ?_
  rw [V3_v15 m ρ c, V3_arg5 m ρ c, V3_v16 m ρ c, V3_arg7 m ρ c, V3_v17 m ρ c, W2_v12 m ρ c D1 hD1 hE]
  unfold wholeNet nodeMlp edgeMsg
  rw [reshape_row_eq_bcast _ shapeCasts_S128_S1x128 h1, reshape_row_eq_bcast _ shapeCasts_S128_S1x128 h1,
    reshape_row_eq_bcast _ shapeCasts_S128_S1x128 h1, addf_assoc]

end Cert.KernelIdeal.WholeNet

end
-- ==== Proof.lean ====
/-
  A message-passing layer: for every edge `e` the message `H[src e] + edge_attr[e] · We + be`, the messages summed
  into their destination nodes, and each node's sum sent through `x ↦ max(x · W1 + b1, 0) · W2 + b2`.

  The kernel program gathers the source rows on the host, forms the messages in a first kernel region tiled over the
  edges (3200 edges a tile), scatter-adds them on the host, and applies the node network in a second kernel region tiled
  over the nodes (5000 nodes a tile); the reference does all of it on the host. Over the extended reals a change of float
  format is the identity and a matrix product into a zero accumulator is the plain sum over the shared axis, and every
  operation of the two kernel bodies treats rows independently; so each region leaves in its result array one whole-array
  function of the arrays it found (Proof/EdgeRegion.lean, Proof/NodeRegion.lean), and reading the host stretches between
  them composes the kernel program's result into the reference's own expression (Proof/KernelValue.lean). The only
  differences left are the order of two additions in the message — `(gathered + product) + bias` against
  `gathered + (product + bias)`, equal by associativity, which holds for extended reals with no finiteness needed — and
  the bias vectors becoming one-row matrices by a reshape in one program and by a broadcast in the other.
  No rewrite was made in idealizing the kernel, so that claim is empty; the frames are the generated ones, the
  reference's its generated run with the result dropped.
-/
import proofs.«123321_j30116310679888_1_alg».proof.Defs
import proofs.«123321_j30116310679888_1_alg».proof.Proof.Gen.Kernel
import proofs.«123321_j30116310679888_1_alg».proof.Proof.Gen.Kernel.Skeleton
import proofs.«123321_j30116310679888_1_alg».proof.Proof.Gen.Kernel.Launch
import proofs.«123321_j30116310679888_1_alg».proof.Proof.Gen.Kernel.Points
import proofs.«123321_j30116310679888_1_alg».proof.Proof.Gen.Kernel.Frame
import proofs.«123321_j30116310679888_1_alg».proof.Proof.Gen.KernelIdeal
import proofs.«123321_j30116310679888_1_alg».proof.Proof.Gen.KernelIdeal.Skeleton
import proofs.«123321_j30116310679888_1_alg».proof.Proof.Gen.KernelIdeal.Launch
import proofs.«123321_j30116310679888_1_alg».proof.Proof.Gen.KernelIdeal.Points
import proofs.«123321_j30116310679888_1_alg».proof.Proof.Gen.KernelIdeal.Frame
import proofs.«123321_j30116310679888_1_alg».proof.Proof.Gen.ReferenceIdeal
import proofs.«123321_j30116310679888_1_alg».proof.Proof.Gen.ReferenceIdeal.Run
import proofs.«123321_j30116310679888_1_alg».proof.Proof.Gen.Pre_finite_inputs
import proofs.«123321_j30116310679888_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's two matrix products are plain: the left operand contracted on its columns, the right on its rows. -/
theorem plain_edge : Cert.RowBlock.IsRows.Plain Cert.ReferenceIdeal.dot_S1600000x16_S16x128_S1600000x128_1_0_0_1_n_n 1 0 0 1 :=
  ⟨rfl, rfl, rfl, rfl, rfl, rfl⟩
theorem plain_node : Cert.RowBlock.IsRows.Plain Cert.ReferenceIdeal.dot_S100000x128_S128x128_S100000x128_1_0_0_1_n_n 1 0 0 1 :=
  ⟨rfl, rfl, rfl, rfl, rfl, rfl⟩

/-- Both programs end with the whole computation of the (agreeing) arguments in their result arrays: the kernel program by
    its two regions' whole-array functions composed through the host stretches, the reference by its run, whose term is
    that computation letter for letter. -/
theorem algebraic : Cert.algebraic_KernelIdeal_ReferenceIdeal := by
  intro m ρ m' ρ' _ hagree
  refine ⟨fun c => Cert.KernelIdeal.WholeNet.wholeNet
      Cert.ReferenceIdeal.dot_S1600000x16_S16x128_S1600000x128_1_0_0_1_n_n
      Cert.ReferenceIdeal.dot_S100000x128_S128x128_S100000x128_1_0_0_1_n_n
      Cert.ReferenceIdeal.Facts₀.bcast_S1x128_S1600000x128_0_1 Cert.ReferenceIdeal.Facts₀.bcast_S1x128_S100000x128_0_1
      Cert.ReferenceIdeal.Facts₀.bcast_S128_S1x128_1
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.WholeNet.result_eq m ρ c _ plain_edge _ plain_node _ _ _), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [e0, e1, e2, e3, e4, e5, e6, e7, e8]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
